-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x64 : Shape := ⟨2, ![32768, 64]⟩
abbrev S8192x64 : Shape := ⟨2, ![8192, 64]⟩
abbrev S8192 : Shape := ⟨1, ![8192]⟩
abbrev S_ : Shape := ⟨0, ![]⟩

class Facts : Prop where
  bcast_S_S32768x64 : S_.BroadcastsInDim S32768x64 (![] : Fin 0 → Fin S32768x64.rank)
  reducesTo_S32768x64_S_d0_1 : S32768x64.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S32768x64 .f32) (main_arg1 : FVec F S8192x64 .f32) (main_arg2 : FVec F S8192 .f32) : IVec S_ 1 :=
  let main_v0 : FVec F S32768x64 .f32 := Host.absf main_arg0
  let main_cst : FVec F S_ .f32 := constant S_ .f32 0x7F800000#32
  let main_v1 : FVec F S32768x64 .f32 := broadcastInDim S32768x64 ![] bcast_S_S32768x64 main_cst
  let main_v2 : IVec S32768x64 1 := cmpf .olt main_v0 main_v1
  let main_c : IVec S_ 1 := constantI S_ 1 1#1
  let main_v3 : IVec S_ 1 := (fun x v => Host.reduce IntOp.andi x v reducesTo_S32768x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S32768x64 : Shape := ⟨2, ![32768, 64]⟩
abbrev S8192x64 : Shape := ⟨2, ![8192, 64]⟩
abbrev S8192 : Shape := ⟨1, ![8192]⟩
abbrev S1x8192 : Shape := ⟨2, ![1, 8192]⟩
abbrev S32768x1 : Shape := ⟨2, ![32768, 1]⟩
abbrev S1024x64 : Shape := ⟨2, ![1024, 64]⟩
abbrev S1x1024 : Shape := ⟨2, ![1, 1024]⟩
abbrev S1024x1 : Shape := ⟨2, ![1024, 1]⟩
abbrev S1024 : Shape := ⟨1, ![1024]⟩
abbrev S64x1024 : Shape := ⟨2, ![64, 1024]⟩
abbrev S1024x1024 : Shape := ⟨2, ![1024, 1024]⟩
abbrev S_ : Shape := ⟨0, ![]⟩

abbrev nBuf : Space → Nat
  | .hbm => 14
  | .vmem => 9
  | .smem => 0
  | _ => 0

abbrev bufTy : (tb : Table) → Fin (tcTables nBuf tb) → BufTy
  | .hbm, ⟨0, _⟩ => ⟨S32768x64, .f32⟩
  | .hbm, ⟨1, _⟩ => ⟨S8192x64, .f32⟩
  | .hbm, ⟨2, _⟩ => ⟨S8192, .f32⟩
  | .hbm, ⟨3, _⟩ => ⟨S1x8192, .f32⟩
  | .hbm, ⟨4, _⟩ => ⟨S32768x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1x1024, .f32⟩
  | .local _ .vmem, ⟨5, _⟩ => ⟨S1x1024, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | _, _ => ⟨S32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v33 : BitVec 1 := Scalar.cmpi .eq arg1 c7_i32
  let v34 : BitVec 32 := Scalar.extui v33
  let c0_i32_14 : BitVec 32 := 0#32
  let v35 : BitVec 1 := Scalar.cmpi .ne v34 c0_i32_14
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  reduces_S1024x64_S1024 : S1024x64.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  transposes_S1024x64_p1_0_S64x1024 : S1024x64.Transposes [1, 0] S64x1024
  broadcasts_S1024x1_S1024x1024 : S1024x1.Broadcasts S1024x1024
  broadcasts_S1x1024_S1024x1024 : S1x1024.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S1024x1024_S1024 : S1024x1024.Reduces [1] S1024
  reducesTo_S32768x1_S_d0_1 : S32768x1.ReducesTo [0, 1] S_
  h_S_ : 0 < S_.numel
  reducesTo_S8192_S_d0 : S8192.ReducesTo [0] S_
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S32768x64.size a
  hwx0_0 : ∀ i : grid0.Coords, EltTy.bits .f32 = 32 ∨ (Rect.block (s := S32768x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S32768x1.size a
  hwx0_3 : ∀ i : grid0.Coords, EltTy.bits .f32 = 32 ∨ (Rect.block (s := S32768x1) S1024x1.size (cc0_transform_3 i) (hinb0_3 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32768x64 : Shape := ⟨2, ![32768, 64]⟩
abbrev S8192x64 : Shape := ⟨2, ![8192, 64]⟩
abbrev S8192 : Shape := ⟨1, ![8192]⟩
abbrev S_ : Shape := ⟨0, ![]⟩
abbrev S32768 : Shape := ⟨1, ![32768]⟩
abbrev S32768x1 : Shape := ⟨2, ![32768, 1]⟩
abbrev S1x8192 : Shape := ⟨2, ![1, 8192]⟩
abbrev S32768x8192 : Shape := ⟨2, ![32768, 8192]⟩
abbrev S64x8192 : Shape := ⟨2, ![64, 8192]⟩

abbrev nBuf : Space → Nat
  | .hbm => 34
  | .vmem => 0
  | .smem => 0
  | _ => 0

abbrev bufTy : (tb : Table) → Fin (tcTables nBuf tb) → BufTy
  | .hbm, ⟨0, _⟩ => ⟨S32768x64, .f32⟩
  | .hbm, ⟨1, _⟩ => ⟨S8192x64, .f32⟩
  | .hbm, ⟨2, _⟩ => ⟨S8192, .f32⟩
  | .hbm, ⟨3, _⟩ => ⟨S32768x64, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S8192x64, .f32⟩
  | .hbm, ⟨8, _⟩ => ⟨S_, .f32⟩
  | .hbm, ⟨9, _⟩ => ⟨S8192, .f32⟩
  | .hbm, ⟨10, _⟩ => ⟨S1x8192, .f32⟩
  | .hbm, ⟨11, _⟩ => ⟨S32768x8192, .f32⟩
  | .hbm, ⟨12, _⟩ => ⟨S32768x8192, .f32⟩
  | .hbm, ⟨13, _⟩ => ⟨S32768x8192, .f32⟩
  | .hbm, ⟨14, _⟩ => ⟨S64x8192, .f32⟩
  | .hbm, ⟨15, _⟩ => ⟨S32768x8192, .f32⟩
  | .hbm, ⟨16, _⟩ => ⟨S_, .f32⟩
  | .hbm, ⟨17, _⟩ => ⟨S32768x8192, .f32⟩
  | .hbm, ⟨18, _⟩ => ⟨S32768x8192, .f32⟩
  | .hbm, ⟨19, _⟩ => ⟨S32768x8192, .f32⟩
  | .hbm, ⟨20, _⟩ => ⟨S1x8192, .f32⟩
  | .hbm, ⟨21, _⟩ => ⟨S32768x8192, .f32⟩
  | .hbm, ⟨22, _⟩ => ⟨S32768x8192, .f32⟩
  | .hbm, ⟨23, _⟩ => ⟨S_, .f32⟩
  | .hbm, ⟨24, _⟩ => ⟨S32768, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  reducesTo_S32768x64_S32768_d1 : S32768x64.ReducesTo [1] S32768
  h_S_ : 0 < S_.numel
  bcast_S32768_S32768x1_0 : S32768.BroadcastsInDim S32768x1 (![0] : Fin 1 → Fin S32768x1.rank)
  reducesTo_S8192x64_S8192_d1 : S8192x64.ReducesTo [1] S8192
  bcast_S8192_S1x8192_1 : S8192.BroadcastsInDim S1x8192 (![1] : Fin 1 → Fin S1x8192.rank)
  bcast_S32768x1_S32768x8192_0_1 : S32768x1.BroadcastsInDim S32768x8192 (![0, 1] : Fin 2 → Fin S32768x8192.rank)
  bcast_S1x8192_S32768x8192_0_1 : S1x8192.BroadcastsInDim S32768x8192 (![0, 1] : Fin 2 → Fin S32768x8192.rank)
  transposes_S8192x64_S64x8192_1_0 : S8192x64.Transposes [1, 0] S64x8192
  bcast_S_S32768x8192 : S_.BroadcastsInDim S32768x8192 (![] : Fin 0 → Fin S32768x8192.rank)
  reducesTo_S32768x8192_S32768_d1 : S32768x8192.ReducesTo [1] S32768
  reducesTo_S32768_S_d0 : S32768.ReducesTo [0] S_
  reducesTo_S8192_S_d0 : S8192.ReducesTo [0] S_
  dot_S32768x64_S64x8192_S32768x8192_1_0_0_1_n_n_wf : DotDims.WF S32768x64 S64x8192 S32768x8192 [1] [0] [0] [1] [] []

variable [Facts₀]

def dot_S32768x64_S64x8192_S32768x8192_1_0_0_1_n_n : DotDims S32768x64 S64x8192 S32768x8192 where
  lhsContracting := [1]
  rhsContracting := [0]
  lhsNonContracting := [0]
  rhsNonContracting := [1]
  lhsBatch := []
  rhsBatch := []
  wf := dot_S32768x64_S64x8192_S32768x8192_1_0_0_1_n_n_wf

class Facts : Prop extends Facts₀ where

variable [Facts]
-- ==== Proof.Spec.lean ====
/-
  The semi-dual optimal-transport loss with the squared Euclidean cost, as one function of its
  three arrays over the extended reals.

  For points x_i (the rows of an [32768, 64] array), y_j (the rows of an [8192, 64] array) and
  potentials psi_j:
      c(i, j)   = (|x_i|^2 + |y_j|^2) - 2 <x_i, y_j>          (in this order of operations)
      rowMin(i) = min over j of (c(i, j) - psi_j), starting from the initial value +inf
      loss      = (0 + sum_i rowMin(i)) / 32768 + (0 + sum_j psi_j) / 8192.
  The minimum over all 8192 columns is taken either at once or as a running minimum over eight
  consecutive blocks of 1024 columns, each step `min (running) (min over the block)`, the running
  value starting at the same initial value. Since `min` is idempotent, commutative and
  associative, a lower bound of the running minimum after k blocks is exactly a lower bound of the
  initial value and of every entry of the first 1024 k columns; so the two agree, whatever the
  initial value and with no finiteness assumed.
-/
import Idealize.ShloMosaic.PureOps.Ideal
import Idealize.ShloMosaic.Lib.ValueIdx

noncomputable section

open scoped BigOperators

namespace SemiDual

open Idealize.ShloMosaic Idealize.ShloMosaic.ValueIdx

/-- The factor 2 of the cross term, as the programs spell it. -/
abbrev two : EReal := Ideal.ofBits .f32 0x40000000#32
/-- The value every minimum starts from (the pattern of +inf). -/
abbrev start : EReal := Ideal.ofBits .f32 0x7F800000#32
/-- The value every sum on the host starts from (the pattern of 0). -/
abbrev zero : EReal := Ideal.ofBits .f32 0x00000000#32

/-- The cost of one pair less its potential, from the two rows and the potential:
    `((|x|^2 + |y|^2) - 2 <x, y>) - p`. -/
def pairCost (x y : Fin 64 → EReal) (p : EReal) : EReal :=
  ((∑ d, x d * x d) + (∑ d, y d * y d)) - two * (∑ d, x d * y d) - p

/-- Row `i` of a 64-column array. -/
abbrev rowOf {n : ℕ} (A : (⟨2, ![n, 64]⟩ : Shape).Idx → EReal) (i : Fin n) : Fin 64 → EReal := fun d => A (ix2 i d)

/-- `c(i, j) - psi_j`. -/
def cost (X : (⟨2, ![32768, 64]⟩ : Shape).Idx → EReal) (Y : (⟨2, ![8192, 64]⟩ : Shape).Idx → EReal)
    (P : (⟨1, ![8192]⟩ : Shape).Idx → EReal) (i : Fin 32768) (j : Fin 8192) : EReal :=
  pairCost (rowOf X i) (rowOf Y j) (P (ix1 j))

/-- The minimum of `g` over the columns below `n`, from the starting value. -/
def prefixMin (g : Fin 8192 → EReal) (n : ℕ) : EReal :=
  (Finset.univ.filter fun j : Fin 8192 => j.val < n).fold min start g

/-- `min_j (c(i, j) - psi_j)`, from the starting value. -/
def rowMin (X : (⟨2, ![32768, 64]⟩ : Shape).Idx → EReal) (Y : (⟨2, ![8192, 64]⟩ : Shape).Idx → EReal)
    (P : (⟨1, ![8192]⟩ : Shape).Idx → EReal) (i : Fin 32768) : EReal :=
  (Finset.univ : Finset (Fin 8192)).fold min start (cost X Y P i)

/-- The two means and their sum, from the total `s` of the row minima: the host's closing
    operations, which both programs apply alike. -/
def meanSum (s : EReal) (P : (⟨1, ![8192]⟩ : Shape).Idx → EReal) : EReal :=
  FloatOps.addf (F := Ideal) (φ := .f32)
    (FloatOps.hostDivf (F := Ideal) (φ := .f32) (zero + s) (Ideal.ofBits .f32 0x47000000#32))
    (FloatOps.hostDivf (F := Ideal) (φ := .f32) (zero + ∑ j : (⟨1, ![8192]⟩ : Shape).Idx, P j) (Ideal.ofBits .f32 0x46000000#32))

/-- The loss. -/
def loss (X : (⟨2, ![32768, 64]⟩ : Shape).Idx → EReal) (Y : (⟨2, ![8192, 64]⟩ : Shape).Idx → EReal)
    (P : (⟨1, ![8192]⟩ : Shape).Idx → EReal) : EReal :=
  meanSum (∑ i : Fin 32768, rowMin X Y P i) P

/-! ## The running minimum over blocks of columns -/

theorem le_prefixMin_iff (g : Fin 8192 → EReal) (n : ℕ) (z : EReal) :
    z ≤ prefixMin g n ↔ z ≤ start ∧ ∀ j : Fin 8192, j.val < n → z ≤ g j := by
  unfold prefixMin
  rw [Finset.le_fold_min]
  simp only [Finset.mem_filter, Finset.mem_univ, true_and]

/-- Over no column the running minimum is the starting value. -/
theorem prefixMin_zero (g : Fin 8192 → EReal) : prefixMin g 0 = start := by
  unfold prefixMin
  rw [Finset.filter_false_of_mem (fun j _ => Nat.not_lt_zero _)]
  rfl

/-- Over all columns it is the whole minimum. -/
theorem prefixMin_all (g : Fin 8192 → EReal) : prefixMin g 8192 = (Finset.univ : Finset (Fin 8192)).fold min start g := by
  unfold prefixMin
  rw [Finset.filter_true_of_mem (fun j _ => j.isLt)]

/-- One step: the running minimum over the first `k` blocks, combined with the minimum of block
    `k` (whose entry `q` is column `1024 k + q`), is the running minimum over the first `k + 1`. -/
theorem prefixMin_step (g : Fin 8192 → EReal) (k : ℕ) (hk : k < 8) (tile : Fin 1024 → EReal)
    (htile : ∀ q : Fin 1024, tile q = g ⟨1024 * k + q.val, by have := q.isLt; omega⟩) :
    min (prefixMin g (1024 * k)) ((Finset.univ : Finset (Fin 1024)).fold min start tile)
      = prefixMin g (1024 * (k + 1)) := by
  refine eq_of_forall_le_iff fun z => ?_
  rw [le_min_iff, le_prefixMin_iff, le_prefixMin_iff, Finset.le_fold_min]
  constructor
  · rintro ⟨⟨hs, h1⟩, _, h2⟩
    refine ⟨hs, fun j hj => ?_⟩
    by_cases hlt : j.val < 1024 * k
    · exact h1 j hlt
    · have hq : j.val - 1024 * k < 1024 := by omega
      have := h2 ⟨j.val - 1024 * k, hq⟩ (Finset.mem_univ _)
      rw [htile] at this
      have e : (⟨1024 * k + (j.val - 1024 * k), by omega⟩ : Fin 8192) = j := Fin.ext (by simp only; omega)
      rwa [e] at this
  · rintro ⟨hs, h⟩
    refine ⟨⟨hs, fun j hj => h j (by omega)⟩, hs, fun q _ => ?_⟩
    rw [htile]
    exact h _ (by simp only; have := q.isLt; omega)

/-- The first step, from the starting value itself. -/
theorem prefixMin_first (g : Fin 8192 → EReal) (tile : Fin 1024 → EReal)
    (htile : ∀ q : Fin 1024, tile q = g ⟨q.val, by have := q.isLt; omega⟩) :
    min start ((Finset.univ : Finset (Fin 1024)).fold min start tile) = prefixMin g 1024 := by
  have h := prefixMin_step g 0 (by omega) tile (fun q => (htile q).trans (congrArg g (Fin.ext (by simp))))
  rwa [Nat.mul_zero, prefixMin_zero] at h

end SemiDual

end
-- ==== Proof.LibColumn.lean ====
/-
  Rows and columns of rank-2 arrays read at an index.

  A column vector is an `[a]` array given a trailing unit axis, `[a, 1]`; broadcast along that
  axis it is constant on every row of an `[a, b]` array. A reduction of an `[a, b]` array over its
  second axis reads, at row `r`, the entries `(r, k)`, `k < b`: their sum for an additive reduction,
  and for a minimum the fold of `min` from the initial value — the same fold whether the reduction
  is the vector unit's or the host's, since `min` on the extended reals commutes and associates.
-/
import Idealize.ShloMosaic.PureOps.Ideal
import Idealize.ShloMosaic.PureOps.Ideal.Laws
import Idealize.ShloMosaic.PureOps.Reduce
import Idealize.ShloMosaic.Lib.ValueIdx
import Idealize.ShloMosaic.Lib.ValueIdxRank1
import Idealize.ShloMosaic.Lib.ValueLayout
import Idealize.ShloMosaic.Lib.Pipeline.Value

noncomputable section

open scoped BigOperators

namespace Idealize.ShloMosaic.Column

open Idealize.ShloMosaic Idealize.ShloMosaic.ValueIdx

variable {α : Type}

/-- An `[a]` array cast to `[a, 1]` reads, at `(i, u)`, the operand at `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over row `r` of an `[a, b]` array, the index with coordinate `k` inserted on the second axis is
    `(r, k)`. -/
theorem lift_row {a b : ℕ} (h : (⟨2, ![a, b]⟩ : Shape).Reduces [(1 : Fin 2)] ⟨1, ![a]⟩) (r : Fin a) (k : Fin b) :
    h.lift (ix1 r) k = ix2 r k :=
  funext fun c => Fin.ext (by match c with | ⟨0, _⟩ => rfl | ⟨1, _⟩ => rfl)

/-- A row sum by the vector unit, at the ideal values: the sum of the row's entries. -/
theorem multiReduction_add_row {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (r : Fin a) :
    multiReduction .add [(1 : Fin 2)] ⟨1, ![a]⟩ src acc h hφ hacc (ix1 r) = ∑ k : Fin b, src (ix2 r k) := by
  rw [Ideal.multiReduction_add_single]
  exact Finset.sum_congr rfl fun k _ => congrArg src (lift_row h r k)

/-- A row minimum by the vector unit, at the ideal values: the fold of `min` over the row's entries
    from the accumulator's value. -/
theorem multiReduction_min_row {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.minimumf.neutral φ hφ) (r : Fin a) :
    multiReduction .minimumf [(1 : Fin 2)] ⟨1, ![a]⟩ src acc h hφ hacc (ix1 r)
      = (Finset.univ : Finset (Fin b)).fold min (Ideal.ofBits φ acc) (fun k => src (ix2 r k)) := by
  rw [multiReduction_minimumf_eq_fold, h.fold_filter_drop_single]
  exact congrArg (Finset.fold _ _ · _) (funext fun k => congrArg src (lift_row h r k))

/-- A row minimum by the host's one-operand reduction, at the ideal values: the same fold, from the
    initial value's element. -/
theorem hostReduce_min_row {a b : ℕ} {φ : FTy} {u : Shape} (x : FVec Ideal ⟨2, ![a, b]⟩ φ) (init : u.Idx → Ideal φ)
    (h' : (⟨2, ![a, b]⟩ : Shape).ReducesTo [(1 : Fin 2)] ⟨1, ![a]⟩)
    (h : (⟨2, ![a, b]⟩ : Shape).Reduces [(1 : Fin 2)] ⟨1, ![a]⟩) (hu : 0 < u.numel) (r : Fin a) :
    Host.reduce (FloatOps.minimumf (F := Ideal) (φ := φ)) x init h' hu (ix1 r)
      = (Finset.univ : Finset (Fin b)).fold min (init (Shape.Idx.first hu)) (fun k => x (ix2 r k)) := by
  rw [Host.reduce_eq_fold_single _ x init h' h hu]
  exact congrArg (Finset.fold _ _ · _) (funext fun k => congrArg x (lift_row h r k))

/-- A total of an `[a, 1]` column over every index is the sum over its rows. -/
theorem sum_column {a : ℕ} (f : (⟨2, ![a, 1]⟩ : Shape).Idx → EReal) :
    ∑ i : (⟨2, ![a, 1]⟩ : Shape).Idx, f i = ∑ p : Fin a, f (ix2 p (0 : Fin 1)) := by
  rw [sum_idx2]
  exact Finset.sum_congr rfl fun p _ => Fintype.sum_unique _

/-- A total of an `[a]` array over every index is the sum over its coordinate. -/
theorem sum_vector {a : ℕ} (f : (⟨1, ![a]⟩ : Shape).Idx → EReal) :
    ∑ i : (⟨1, ![a]⟩ : Shape).Idx, f i = ∑ p : Fin a, f (ix1 p) :=
  (Equiv.sum_comp idxEquiv1.symm f).symm

end Idealize.ShloMosaic.Column

end
-- ==== Proof.RefValue.lean ====
/-
  The reference computes the loss.

  Read one operation at a time, at the ideal values: the squared norms are sums over the 64
  coordinates (the host's sums start from the value 0, which adds nothing), the matrix product is
  the sum of products over the coordinates, and the broadcasts place row `p`'s squared norm and
  column `q`'s squared norm and potential at `(p, q)`; so the [32768, 8192] array that the
  minimum is taken over holds `c(p, q) - psi_q`. The host's minimum along a row is the fold of
  `min` from the initial value +inf, the row minimum of the specification; the two means and
  their sum are the closing operations, read literally.
-/
import proofs.«145586_j23965917512075_1_alg».proof.Proof.Gen.ReferenceIdeal.Read
import proofs.«145586_j23965917512075_1_alg».proof.Proof.Spec
import proofs.«145586_j23965917512075_1_alg».proof.Proof.LibColumn

noncomputable section

open scoped BigOperators

namespace Cert.ReferenceIdeal.RefValue

open Cert.ReferenceIdeal Cert.ReferenceIdeal.Gen Cert.ReferenceIdeal.Read Idealize.ShloMosaic Idealize.ShloMosaic.ValueIdx SemiDual

variable (X : (⟨S32768x64, .f32⟩ : BufTy).Contents (Elt Ideal)) (Y : (⟨S8192x64, .f32⟩ : BufTy).Contents (Elt Ideal))
  (P : (⟨S8192, .f32⟩ : BufTy).Contents (Elt Ideal))

/-- Where the broadcast squared norm of the left operand reads it at `(p, q)`: row `p`. -/
theorem idx_sqx (p : Fin 32768) (q : Fin 8192) (k : Fin 64) :
    idx_main_v1 (idx_main_v2 (idx_main_v6 (ix2 p q))) k = ix2 p k :=
  funext fun a => Fin.ext (by match a with | ⟨0, _⟩ => rfl | ⟨1, _⟩ => rfl)

/-- Where the broadcast squared norm of the right operand reads it at `(p, q)`: row `q`. -/
theorem idx_sqy (p : Fin 32768) (q : Fin 8192) (k : Fin 64) :
    idx_main_v4 (idx_main_v5 (idx_main_v7 (ix2 p q))) k = ix2 q k :=
  funext fun a => Fin.ext (by match a with | ⟨0, _⟩ => rfl | ⟨1, _⟩ => rfl)

/-- The product's left factor at `(p, q)` and coordinate `k`: `x_p[k]`. -/
theorem idx_dotx (p : Fin 32768) (q : Fin 8192) (k : Fin 64) : lidx_main_v10 (ix2 p q) k = ix2 p k :=
  funext fun a => Fin.ext (by match a with | ⟨0, _⟩ => rfl | ⟨1, _⟩ => rfl)

/-- The product's right factor, through the transpose: `y_q[k]`. -/
theorem idx_doty (p : Fin 32768) (q : Fin 8192) (k : Fin 64) :
    idx_main_v9 (ridx_main_v10 (ix2 p q) k) = ix2 q k :=
  funext fun a => Fin.ext (by match a with | ⟨0, _⟩ => rfl | ⟨1, _⟩ => rfl)

/-- The potential broadcast to `(p, q)`: `psi_q`. -/
theorem idx_psi (p : Fin 32768) (q : Fin 8192) : idx_main_v14 (idx_main_v15 (ix2 p q)) = ix1 q :=
  funext fun a => Fin.ext (by match a with | ⟨0, _⟩ => rfl)

/-- The array the row minimum is taken over holds `c(p, q) - psi_q`. -/
theorem cost_eq (p : Fin 32768) (q : Fin 8192) :
    val_main_v16 (F := Ideal) X Y P (ix2 p q) = cost X Y P p q := by
  rw [val_main_v16_apply, val_main_v13_apply, val_main_v8_apply, val_main_v6_apply, val_main_v2_apply,
    val_main_v1_apply, val_main_v7_apply, val_main_v5_apply, val_main_v4_apply, val_main_v12_apply,
    val_main_v11_apply, val_main_v10_apply, val_main_v15_apply, val_main_v14_apply]
  simp only [val_main_v0_apply, val_main_v3_apply, val_main_v9_apply, val_main_cst_apply, val_main_cst_0_apply,
    val_main_cst_1_apply, idx_sqx, idx_sqy, idx_dotx, idx_doty, idx_psi, Ideal.mulf_def, Ideal.subf_def,
    Ideal.addf_def, Ideal.ofBits_def, Ideal.ofBits_zero_f32, zero_add]
  rfl

/-- The host's minimum along row `p` is the specification's row minimum. -/
theorem rowMin_eq (p : Fin 32768) : val_main_v17 (F := Ideal) X Y P (ix1 p) = rowMin X Y P p := by
  unfold val_main_v17
  rw [Column.hostReduce_min_row _ _ reducesTo_S32768x8192_S32768_d1 (by decide) h_S_ p]
  simp only [cost_eq]
  rfl

/-- The reference's result, at its one index, is the loss. -/
theorem result_eq (i : S_.Idx) : val_main_v22 (F := Ideal) X Y P i = loss X Y P := by
  rw [val_main_v22_apply, val_main_v19_apply, val_main_v21_apply, val_main_v18_apply, val_main_v20_apply,
    Column.sum_vector]
  simp only [rowMin_eq]
  rfl

end Cert.ReferenceIdeal.RefValue

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.StepValue.lean ====
/-
  What one grid step computes, at an index and at the ideal values.

  From a block of 1024 rows of x, a block of 1024 rows of y, the matching 1024 potentials and the
  running column of row minima, the step's arithmetic leaves in row `r`
      min (running r) (min over the block's columns q of (c(r, q) - psi_q))
  where c(r, q) = (|x_r|^2 + |y_q|^2) - 2 <x_r, y_q>: the squared norms are row sums of squares kept
  as columns, |y|^2 transposed into a row, both broadcast over the 1024 x 1024 tile; the inner
  products are one matrix product of the x block by the transposed y block (the narrowing of the
  operands to a shorter float format is the identity on the extended reals); the block's minimum
  along each row starts from +inf. The reset value of the running column is +inf in every row.
-/
import proofs.«145586_j23965917512075_1_alg».proof.Proof.Gen.KernelIdeal.Skeleton
import proofs.«145586_j23965917512075_1_alg».proof.Proof.Spec
import proofs.«145586_j23965917512075_1_alg».proof.Proof.LibColumn
import proofs.«145586_j23965917512075_1_alg».proof.Proof.LibDot2
import Idealize.ShloMosaic.Lib.Pipeline.Value
import Idealize.ShloMosaic.Lib.ValueLayout

noncomputable section

open scoped BigOperators

namespace Cert.KernelIdeal.StepValue

open Cert.KernelIdeal Cert.KernelIdeal.Gen Idealize.ShloMosaic Idealize.ShloMosaic.ValueIdx SemiDual

/-- The reset value: +inf in every row. -/
theorem reset_apply (y : S1024x1.Idx) : k0_pay1 (F := Ideal) y = start := by
  unfold k0_pay1
  exact congrFun (shapeCast_self _ _) y

/-- The cost tile of one step at `(r, q)`: `c(r, q) - psi_q` of row `r` of the x block, row `q` of the
    y block and the block's potential `q`. -/
def tileCost (x0 x1 : Vec Ideal S1024x64 .f32) (x2 : Vec Ideal S1x1024 .f32) (r q : Fin 1024) : EReal :=
  pairCost (fun d => x0 (ix2 r d)) (fun d => x1 (ix2 q d)) (x2 (ix2 (0 : Fin 1) q))

/-- The step's stored column at row `r`: the running minimum combined with the tile's row minimum. -/
theorem step_apply (x0 x1 : Vec Ideal S1024x64 .f32) (x2 : Vec Ideal S1x1024 .f32) (acc : Vec Ideal S1024x1 .f32)
    (r : Fin 1024) :
    k0_pay2 (F := Ideal) x0 x1 x2 acc (ix2 r (0 : Fin 1))
      = min (acc (ix2 r (0 : Fin 1))) ((Finset.univ : Finset (Fin 1024)).fold min start (tileCost x0 x1 x2 r)) := by
  unfold k0_pay2
  dsimp only
  refine (congrFun (shapeCast_self _ _) _).trans ?_
  refine congrArg (min (acc (ix2 r (0 : Fin 1)))) ?_
  refine (Column.shapeCast_a_a1_apply _ _ r (0 : Fin 1)).trans ?_
  refine (Column.multiReduction_min_row _ _ _ _ _ r).trans ?_
  refine congrArg (Finset.fold min _ · _) (funext fun q => ?_)
  unfold tileCost pairCost
  refine congrArg₂ (· - ·) (congrArg₂ (· - ·) (congrArg₂ (· + ·) ?_ ?_) (congrArg₂ (· * ·) ?_ ?_)) ?_
  · -- |x_r|^2, a column broadcast along the row
    refine (Column.broadcastTo_a1_ab_apply _ _ r q).trans ?_
    refine (Column.shapeCast_a_a1_apply _ _ r (0 : Fin 1)).trans ?_
    exact Column.multiReduction_add_row _ _ _ _ _ r
  · -- |y_q|^2, a column transposed into a row and broadcast down the rows
    refine (broadcastTo_1b_ab_apply _ _ r q).trans ?_
    refine (transpose_ix2_apply _ _ (0 : Fin 1) q).trans ?_
    refine (Column.shapeCast_a_a1_apply _ _ q (0 : Fin 1)).trans ?_
    exact Column.multiReduction_add_row _ _ _ _ _ q
  · rfl
  · -- <x_r, y_q>: the product of the x block by the transposed y block
    refine (Dot2.matmul_zero_mm_apply dot_S1024x64_S64x1024_S1024x1024_1_0_0_1_n_n_wf none _ _ r q).trans ?_
    refine Finset.sum_congr rfl fun k _ => congrArg₂ (· * ·) rfl ?_
    exact transpose_ix2_apply _ _ k q
  · -- psi_q, a row broadcast down the rows
    refine (broadcastTo_1b_ab_apply _ _ r q).trans ?_
    exact congrFun (shapeCast_self _ _) _

end Cert.KernelIdeal.StepValue

end
-- ==== Proof.Pieces.lean ====
/-
  What each kind of grid step leaves behind, as values.

  A step of the first kind (the first of the eight column blocks of a row block) resets the running
  column to +inf, reads it back, and stores the step's result over it; a step of the middle kind
  stores the step's result over what the step before left; a step of the last kind does the same
  and then copies the running column into the output block. In every case the running column ends
  as the step's arithmetic applied to the two input blocks, the potentials and the column it started
  from (the reset value for the first kind), and in the last case the output block holds the same.
-/
import proofs.«145586_j23965917512075_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- A middle step: the running column ends as the step's result over what it held. -/
theorem scratch_B (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i)
    (x0 x1 : Vec F S1024x64 .f32) (x2 : Vec F S1x1024 .f32) (xs0 : Vec F S1024x1 .f32) :
    sout0_B_0 c i arg2 harg2 arg3 harg3 arg4 harg4 arg5 harg5 arg6 harg6 hc0 hc1 x0 x1 x2 xs0 = k0_pay2 x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  simp only [View.readAt_eq_ld, harg2.read_unread, harg3.read_unread, harg4.read_unread, harg5.read_unread, harg6.read_unread, View.ld_unit_zero (S := S1024x64) hz, View.ld_unit_zero (S := S1x1024) hz, View.ld_unit_zero (S := S1024x1) hz]

/-- A last step: the running column ends as the step's result over what it held, -/
theorem scratch_C (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i)
    (x0 x1 : Vec F S1024x64 .f32) (x2 : Vec F S1x1024 .f32) (xs0 : Vec F S1024x1 .f32) :
    sout0_C_0 c i arg2 harg2 arg3 harg3 arg4 harg4 arg5 harg5 arg6 harg6 hc0 hc1 x0 x1 x2 xs0 = k0_pay2 x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg5.read_unread, harg6.read_unread, View.ld_unit_zero (S := S1024x64) hz, View.ld_unit_zero (S := S1x1024) hz, View.ld_unit_zero (S := S1024x1) hz]

/-- and the output block holds the same column. -/
theorem out_C (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i)
    (x0 x1 : Vec F S1024x64 .f32) (x2 : Vec F S1x1024 .f32) (xs0 : Vec F S1024x1 .f32) :
    out0_C_3 c i arg2 harg2 arg3 harg3 arg4 harg4 arg5 harg5 arg6 harg6 hc0 hc1 x0 x1 x2 xs0 = k0_pay2 x0 x1 x2 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg5.read_unread, harg6.read_unread, View.ld_unit_zero (S := S1024x64) hz, View.ld_unit_zero (S := S1x1024) hz, View.ld_unit_zero (S := S1024x1) hz, View.readCov_unit_zero (S := S1024x1) _ hz]

/-- A first step: the running column ends as the step's result over the reset value. -/
theorem scratch_A (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i)
    (x0 x1 : Vec F S1024x64 .f32) (x2 : Vec F S1x1024 .f32) :
    sout0_A_0 c i arg2 harg2 arg3 harg3 arg4 harg4 arg5 harg5 arg6 harg6 hc0 hc1 x0 x1 x2 = k0_pay2 x0 x1 x2 k0_pay1 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg6.read_unread, View.ld_unit_zero (S := S1024x64) hz, View.ld_unit_zero (S := S1x1024) hz, View.ld_unit_zero (S := S1024x1) hz]

end Cert.KernelIdeal.Pieces

end
-- ==== Proof.Accum.lean ====
/-
  The running column of row minima, grid step by grid step.

  The grid is 32 row blocks by 8 column blocks, walked row block by row block; step `n` works on
  rows 1024 (n / 8) + r of x and columns 1024 (n mod 8) + q of y and psi. The window of x at step
  `n` is rows 1024 (n / 8) ..., that of y and of psi (a [1, 8192] row made from the vector of
  potentials by a reshape) is columns 1024 (n mod 8) .... By induction on the step, after step `n`
  the running column holds in row `r` the minimum, from +inf, of c(i, j) - psi_j over the columns
  j < 1024 (n mod 8 + 1), for i = 1024 (n / 8) + r: the first step of a row block starts from the
  reset value, every other step from what the step before left, and one step extends the range of
  columns by its block. After the last step of a row block this is the minimum over all columns,
  and the output block holds the same column.
-/
import proofs.«145586_j23965917512075_1_alg».proof.Proof.Gen.KernelIdeal.Frame
import proofs.«145586_j23965917512075_1_alg».proof.Proof.Spec
import proofs.«145586_j23965917512075_1_alg».proof.Proof.StepValue
import proofs.«145586_j23965917512075_1_alg».proof.Proof.Pieces
import Idealize.ShloMosaic.Lib.Pipeline.Value
import Idealize.ShloMosaic.Lib.ValueLayout
import Idealize.ShloMosaic.Lib.StableHlo.Run

noncomputable section

namespace Cert.KernelIdeal.Accum

open Cert.KernelIdeal Cert.KernelIdeal.Gen Idealize.ShloMosaic Idealize.ShloMosaic.TcCoe Idealize.SL.Sem
open Idealize.ShloMosaic.ValueIdx SemiDual
open Idealize.ShloMosaic.Pipeline (Dat)

variable (m : (ℓ : Loc nD τ sig) → Buf (Elt Ideal) ℓ)

/-- The three argument arrays. -/
abbrev xarr (c : Dev nD) : Vec Ideal S32768x64 .f32 := m ((c : Thread nD τ).loc main_arg0)
abbrev yarr (c : Dev nD) : Vec Ideal S8192x64 .f32 := m ((c : Thread nD τ).loc main_arg1)
abbrev parr (c : Dev nD) : Vec Ideal S8192 .f32 := m ((c : Thread nD τ).loc main_arg2)

/-- The three input blocks of a step. -/
abbrev xblk (c : Dev nD) (t : Fin cfg0.N) : Vec Ideal S1024x64 .f32 := iblk m c 0 t
abbrev yblk (c : Dev nD) (t : Fin cfg0.N) : Vec Ideal S1024x64 .f32 := iblk m c 1 t
abbrev pblk (c : Dev nD) (t : Fin cfg0.N) : Vec Ideal S1x1024 .f32 := iblk m c 2 t

/-- Which block each window is on at step `t`: the row block `t / 8` for x and the output, the
    column block `t mod 8` for y and the potentials. -/
theorem idx_facts : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = 0 ∧ win0_2.index t (1 : Fin 2) = t.val % 8
    ∧ win0_3.index t (0 : Fin 2) = t.val / 8 ∧ win0_3.index t (1 : Fin 2) = 0 :=
  (by decide +kernel : ∀ t : Fin grid0.N, _)

/-- The x block at `(r, d)` is row `1024 (t / 8) + r` of x. -/
theorem xblk_apply (c : Dev nD) (t : Fin cfg0.N) (r : Fin 1024) (d : Fin 64) (i : Fin 32768)
    (hi : i.val = 1024 * (t.val / 8) + r.val) : xblk m c t (ix2 r d) = xarr m c (ix2 i d) := by
  obtain ⟨e0, e1, -⟩ := idx_facts t
  show ((cfg0.win 0).blk t).view.read (Elt Ideal) (V m c main_arg0) (ix2 r d) = _
  rw [View.read_apply, V_main_arg0]
  refine congrArg (m ((c : Thread nD τ).loc main_arg0)) (funext fun a => Fin.ext ?_)
  match a with
  | ⟨0, _⟩ => show win0_0.index t (0 : Fin 2) * 1024 + 1 * r.val = i.val; omega
  | ⟨1, _⟩ => show win0_0.index t (1 : Fin 2) * 64 + 1 * d.val = d.val; omega

/-- The y block at `(q, d)` is row `1024 (t mod 8) + q` of y. -/
theorem yblk_apply (c : Dev nD) (t : Fin cfg0.N) (q : Fin 1024) (d : Fin 64) (j : Fin 8192)
    (hj : j.val = 1024 * (t.val % 8) + q.val) : yblk m c t (ix2 q d) = yarr m c (ix2 j d) := by
  obtain ⟨-, -, e0, e1, -⟩ := idx_facts t
  show ((cfg0.win 1).blk t).view.read (Elt Ideal) (V m c main_arg1) (ix2 q d) = _
  rw [View.read_apply, V_main_arg1]
  refine congrArg (m ((c : Thread nD τ).loc main_arg1)) (funext fun a => Fin.ext ?_)
  match a with
  | ⟨0, _⟩ => show win0_1.index t (0 : Fin 2) * 1024 + 1 * q.val = j.val; omega
  | ⟨1, _⟩ => show win0_1.index t (1 : Fin 2) * 64 + 1 * d.val = d.val; omega

/-- The row of potentials the region finds is the vector of potentials with a leading unit axis. -/
theorem prow_eq (c : Dev nD) :
    (V m c main_v0 : S1x8192.Idx → EReal) = shapeCast S1x8192 (m ((c : Thread nD τ).loc main_arg2)) shapeCasts_S8192_S1x8192 := by
  show StableHlo.after hostOps0 (fun b => m (c, b)) (Proc.devRef .tc main_v0) = _
  after_results
  rfl

/-- The block of potentials at `(0, q)` is potential `1024 (t mod 8) + q`. -/
theorem pblk_apply (c : Dev nD) (t : Fin cfg0.N) (q : Fin 1024) (j : Fin 8192)
    (hj : j.val = 1024 * (t.val % 8) + q.val) : pblk m c t (ix2 (0 : Fin 1) q) = parr m c (ix1 j) := by
  obtain ⟨-, -, -, -, e0, e1, -⟩ := idx_facts t
  show ((cfg0.win 2).blk t).view.read (Elt Ideal) (V m c main_v0) (ix2 (0 : Fin 1) q) = _
  rw [View.read_apply, prow_eq]
  refine (congrArg (shapeCast S1x8192 (m ((c : Thread nD τ).loc main_arg2)) shapeCasts_S8192_S1x8192)
    (funext fun a => Fin.ext ?_)).trans (shapeCast_a_1a_apply _ _ (0 : Fin 1) j)
  match a with
  | ⟨0, _⟩ => show win0_2.index t (0 : Fin 2) * 1 + 1 * 0 = 0; omega
  | ⟨1, _⟩ => show win0_2.index t (1 : Fin 2) * 1024 + 1 * q.val = j.val; omega

/-- The step's cost tile at `(r, q)` is `c(i, j) - psi_j` at the row and column the blocks come from. -/
theorem tile_eq (c : Dev nD) (t : Fin cfg0.N) (r q : Fin 1024) (i : Fin 32768) (hi : i.val = 1024 * (t.val / 8) + r.val)
    (j : Fin 8192) (hj : j.val = 1024 * (t.val % 8) + q.val) :
    StepValue.tileCost (xblk m c t) (yblk m c t) (pblk m c t) r q = cost (xarr m c) (yarr m c) (parr m c) i j := by
  have hx : (fun d => xblk m c t (ix2 r d)) = rowOf (xarr m c) i := funext fun d => xblk_apply m c t r d i hi
  have hy : (fun d => yblk m c t (ix2 q d)) = rowOf (yarr m c) j := funext fun d => yblk_apply m c t q d j hj
  unfold StepValue.tileCost cost
  rw [hx, hy, pblk_apply m c t q j hj]

/-! ## The running column after each kind of step -/

/-- After the first step of a row block: the step's result over the reset value. -/
theorem scratch_first (c : Dev nD) (t : Fin cfg0.N) (h0 : t.val % 8 = 0) :
    (outsAt0 m c t.val t.isLt).2 = k0_pay2 (xblk m c t) (yblk m c t) (pblk m c t) (k0_pay1 (F := Ideal)) := by
  have h1 : ¬t.val % 8 = 7 := by omega
  rw [outsAt0_A m c t h0 h1]
  dsimp only
  exact Pieces.scratch_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (xblk m c t) (yblk m c t) (pblk m c t)

/-- After any other step: the step's result over what the step before left. -/
theorem scratch_next (c : Dev nD) (t : Fin cfg0.N) (h0 : ¬t.val % 8 = 0) :
    (outsAt0 m c t.val t.isLt).2 = k0_pay2 (xblk m c t) (yblk m c t) (pblk m c t)
      (outsAt0 m c (t.val - 1) (Nat.lt_of_le_of_lt (Nat.sub_le _ _) t.isLt)).2 := by
  by_cases h1 : t.val % 8 = 7
  · rw [outsAt0_C m c t h0 h1]
    dsimp only
    exact Pieces.scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (xblk m c t) (yblk m c t) (pblk m c t) (outsAt0 m c (t.val - 1) (Nat.lt_of_le_of_lt (Nat.sub_le _ _) t.isLt)).2
  · rw [outsAt0_B m c t h0 h1]
    dsimp only
    exact Pieces.scratch_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h))
      (xblk m c t) (yblk m c t) (pblk m c t) (outsAt0 m c (t.val - 1) (Nat.lt_of_le_of_lt (Nat.sub_le _ _) t.isLt)).2

/-- After the last step of a row block the output block holds the running column. -/
theorem out_last (c : Dev nD) (t : Fin cfg0.N) (h1 : t.val % 8 = 7) :
    (outsAt0 m c t.val t.isLt).1 = (outsAt0 m c t.val t.isLt).2 := by
  have h0 : ¬t.val % 8 = 0 := by omega
  rw [outsAt0_C m c t h0 h1]
  dsimp only
  exact (Pieces.out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (xblk m c t) (yblk m c t) (pblk m c t) (outsAt0 m c (t.val - 1) (Nat.lt_of_le_of_lt (Nat.sub_le _ _) t.isLt)).2).trans
    (Pieces.scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (xblk m c t) (yblk m c t) (pblk m c t) (outsAt0 m c (t.val - 1) (Nat.lt_of_le_of_lt (Nat.sub_le _ _) t.isLt)).2).symm

/-! ## The invariant -/

/-- After step `n`, row `r` of the running column is the minimum of `c(i, j) - psi_j` over the
    columns `j < 1024 (n mod 8 + 1)`, `i = 1024 (n / 8) + r`. -/
theorem scratch_inv (c : Dev nD) : ∀ (n : ℕ) (h : n < cfg0.N) (r : Fin 1024) (i : Fin 32768),
    i.val = 1024 * (n / 8) + r.val →
    (outsAt0 m c n h).2 (ix2 r (0 : Fin 1))
      = prefixMin (cost (xarr m c) (yarr m c) (parr m c) i) (1024 * (n % 8 + 1)) := by
  intro n
  induction n with
  | zero =>
    intro h r i hi
    refine (congrFun (scratch_first m c ⟨0, h⟩ (Nat.zero_mod 8)) (ix2 r (0 : Fin 1))).trans ?_
    refine (StepValue.step_apply _ _ _ _ r).trans ?_
    rw [StepValue.reset_apply]
    exact prefixMin_first _ _ fun q => tile_eq m c ⟨0, h⟩ r q i hi ⟨q.val, by have := q.isLt; omega⟩ (by simp)
  | succ n ih =>
    intro h r i hi
    have hN : n + 1 < 256 := lt_of_lt_of_eq h (show cfg0.N = 256 from N_0)
    by_cases h0 : (n + 1) % 8 = 0
    · refine (congrFun (scratch_first m c ⟨n + 1, h⟩ h0) (ix2 r (0 : Fin 1))).trans ?_
      refine (StepValue.step_apply _ _ _ _ r).trans ?_
      rw [StepValue.reset_apply, h0]
      exact prefixMin_first _ _ fun q => tile_eq m c ⟨n + 1, h⟩ r q i hi ⟨q.val, by have := q.isLt; omega⟩
        (by show q.val = 1024 * ((n + 1) % 8) + q.val; omega)
    · refine (congrFun (scratch_next m c ⟨n + 1, h⟩ h0) (ix2 r (0 : Fin 1))).trans ?_
      refine (StepValue.step_apply _ _ _ _ r).trans ?_
      show min ((outsAt0 m c n (Nat.lt_of_succ_lt h)).2 (ix2 r (0 : Fin 1))) _ = _
      rw [ih (Nat.lt_of_succ_lt h) r i (by omega), show n % 8 + 1 = (n + 1) % 8 from by omega]
      exact prefixMin_step _ ((n + 1) % 8) (by omega) _ fun q =>
        tile_eq m c ⟨n + 1, h⟩ r q i hi ⟨1024 * ((n + 1) % 8) + q.val, by have := q.isLt; omega⟩ rfl

/-- After the last step of a row block the output block holds the row minima of its rows. -/
theorem out_rowMin (c : Dev nD) (t : Fin cfg0.N) (h1 : t.val % 8 = 7) (r : Fin 1024) (i : Fin 32768)
    (hi : i.val = 1024 * (t.val / 8) + r.val) :
    (outsAt0 m c t.val t.isLt).1 (ix2 r (0 : Fin 1)) = rowMin (xarr m c) (yarr m c) (parr m c) i := by
  rw [out_last m c t h1, scratch_inv m c t.val t.isLt r i hi, h1]
  exact prefixMin_all _

end Cert.KernelIdeal.Accum

end
-- ==== Proof.KernelValue.lean ====
/-
  The kernel program computes the loss.

  The kernel's output is an [32768, 1] column; its block for row block I is written back once,
  after the last of that row block's eight steps, when it holds the row minima of rows
  1024 I .. 1024 I + 1023. The 32 blocks tile the column, so after the run row `i` of the column is
  `min_j (c(i, j) - psi_j)`. The host operations after the kernel total the column, divide by 32768,
  total the potentials, divide by 8192 and add: the specification's closing operations on the
  total of the row minima.
-/
import proofs.«145586_j23965917512075_1_alg».proof.Proof.Gen.KernelIdeal.Frame
import proofs.«145586_j23965917512075_1_alg».proof.Proof.Spec
import proofs.«145586_j23965917512075_1_alg».proof.Proof.LibColumn
import proofs.«145586_j23965917512075_1_alg».proof.Proof.Accum
import Idealize.ShloMosaic.Lib.Pipeline.Value
import Idealize.ShloMosaic.Lib.StableHlo.Run
import Idealize.ShloMosaic.PureOps.Ideal.Laws

noncomputable section

open scoped BigOperators

namespace Cert.KernelIdeal.KernelValue

open Cert.KernelIdeal Cert.KernelIdeal.Gen Cert.KernelIdeal.Accum Idealize.ShloMosaic Idealize.ShloMosaic.TcCoe Idealize.SL.Sem
open Idealize.ShloMosaic.ValueIdx SemiDual
open Idealize.ShloMosaic.Pipeline (Dat)

variable (m : (ℓ : Loc nD τ sig) → Buf (Elt Ideal) ℓ) (ρ : Dev nD → PrngReg)

/-- The column of row minima. -/
def rowMins (c : Dev nD) : Vec Ideal S32768x1 .f32 :=
  fun y => rowMin (xarr m c) (yarr m c) (parr m c) (y 0)

/-- What a write-back writes: the block of the column of row minima at the step's row block. -/
theorem flushed_eq (c : Dev nD) (t : Fin cfg0.N) (hf : (cfg0.win 3).flush t = true) :
    (dats m 0 c).flushed 3 t = ((cfg0.win 3).blk t).view.read (Elt Ideal) (rowMins m c) := by
  have h1 : t.val % 8 = 7 := (flush0_3 t).mp hf
  obtain ⟨-, -, -, -, -, -, e0, e1⟩ := idx_facts t
  have hN : t.val < 256 := lt_of_lt_of_eq t.isLt (show cfg0.N = 256 from N_0)
  show (cfg0.win 3).cut (grid0.coords t) ((dats m 0 c).after 3 t) = _
  rw [after0_3]
  refine funext fun (y : S1024x1.Idx) => ?_
  obtain ⟨r, u, rfl⟩ : ∃ (r : Fin 1024) (u : Fin 1), y = ix2 r u := ⟨y 0, y 1, eq_ix2 y⟩
  obtain rfl : u = 0 := Subsingleton.elim _ _
  show (outsAt0 m c t.val t.isLt).1 (ix2 r (0 : Fin 1))
    = rowMin (xarr m c) (yarr m c) (parr m c) ((((cfg0.win 3).blk t).view.emb (ix2 r (0 : Fin 1))) 0)
  rw [out_rowMin m c t h1 r ⟨1024 * (t.val / 8) + r.val, by have := r.isLt; omega⟩ rfl]
  refine congrArg (rowMin _ _ _) (Fin.ext ?_)
  show 1024 * (t.val / 8) + r.val = win0_3.index t (0 : Fin 2) * 1024 + 1 * r.val
  omega

/-- An index of the column is in the block of step `t` iff each coordinate is in the block's range. -/
theorem mem_blk (t : Fin cfg0.N) (i : S32768x1.Idx) :
    i ∈ ((cfg0.win 3).blk t).view.set ↔ ∀ a : Fin 2, win0_3.index t a * S1024x1.size a ≤ (i a).val
      ∧ (i a).val < win0_3.index t a * S1024x1.size a + S1024x1.size a := by
  show i ∈ ((View.whole main_v1).slice (win0_3.rect t)).set ↔ _
  rw [View.set_slice_whole, Rect.mem_set_unit]
  exact Iff.rfl

/-- Row `i` lies in the block written back after the last step of row block `i / 1024`. -/
theorem cover (i : S32768x1.Idx) :
    ∃ t : Fin cfg0.N, (cfg0.win 3).flush t = true ∧ i ∈ ((cfg0.win 3).blk t).view.set := by
  have hi0 : (i 0).val < 32768 := (i 0).isLt
  have hi1 : (i 1).val < 1 := (i 1).isLt
  have hN : cfg0.N = 256 := N_0
  have ht : 8 * ((i 0).val / 1024) + 7 < cfg0.N := by rw [hN]; omega
  obtain ⟨-, -, -, -, -, -, e0, e1⟩ := idx_facts ⟨8 * ((i 0).val / 1024) + 7, ht⟩
  refine ⟨⟨8 * ((i 0).val / 1024) + 7, ht⟩, (flush0_3 _).mpr (by show (8 * ((i 0).val / 1024) + 7) % 8 = 7; omega), ?_⟩
  rw [mem_blk]
  intro a
  match a with
  | ⟨0, _⟩ =>
    show win0_3.index ⟨8 * ((i 0).val / 1024) + 7, ht⟩ (0 : Fin 2) * 1024 ≤ (i 0).val
      ∧ (i 0).val < win0_3.index ⟨8 * ((i 0).val / 1024) + 7, ht⟩ (0 : Fin 2) * 1024 + 1024
    rw [e0]
    show (8 * ((i 0).val / 1024) + 7) / 8 * 1024 ≤ (i 0).val ∧ (i 0).val < (8 * ((i 0).val / 1024) + 7) / 8 * 1024 + 1024
    omega
  | ⟨1, _⟩ =>
    show win0_3.index ⟨8 * ((i 0).val / 1024) + 7, ht⟩ (1 : Fin 2) * 1 ≤ (i 1).val
      ∧ (i 1).val < win0_3.index ⟨8 * ((i 0).val / 1024) + 7, ht⟩ (1 : Fin 2) * 1 + 1
    omega

/-- After the run the output column is the column of row minima. -/
theorem final (c : Dev nD) : (dats m 0 c).arrAt 3 cfg0.N = rowMins m c :=
  (dats m 0 c).arrAt_eq_of_cover 3 (rowMins m c) (flushed_eq m c) cover

/-- The closing host operations, at the ideal values, on a column `R` and the potentials. -/
theorem closing_eq (R : Vec Ideal S32768x1 .f32) (Pv : Vec Ideal S8192 .f32) (i : S_.Idx) :
    addf (Host.divf (Host.reduceAdd R (constant (F := Ideal) S_ .f32 0x00000000#32) reducesTo_S32768x1_S_d0_1 h_S_)
        (constant (F := Ideal) S_ .f32 0x47000000#32))
      (Host.divf (Host.reduceAdd Pv (constant (F := Ideal) S_ .f32 0x00000000#32) reducesTo_S8192_S_d0 h_S_)
        (constant (F := Ideal) S_ .f32 0x46000000#32)) i
      = meanSum (∑ p : Fin 32768, R (ix2 p (0 : Fin 1))) Pv := by
  simp only [addf, Host.divf, Host.reduceAdd, Ideal.hostReduceAdd_def]
  rw [Ideal.hostReduceAdd_total reducesTo_S32768x1_S_d0_1 (fun b => b.elim0),
    Ideal.hostReduceAdd_total reducesTo_S8192_S_d0 (fun b => b.elim0), Column.sum_column]
  rfl

/-- The program's result buffer after the run. -/
theorem result_eq (c : Dev nD) :
    Pipeline.afterTail₀ cfgs (dats m) 0 (V0 m) [hostOps1] c main_v6
      = fun _ => loss (xarr m c) (yarr m c) (parr m c) := by
  unfold Pipeline.afterTail₀
  show StableHlo.after hostOps1 _ (Proc.devRef .tc main_v6) = _
  after_results
  have e1 : Pipeline.withArrays (cfgs 0).spec c (V0 m c) (fun w => (dats m 0 c).arrAt w (cfgs 0).N)
      (Proc.devRef .tc main_v1) = rowMins m c :=
    (Pipeline.withArrays_arr spec0 launch0.win.arr_inj c _ _ 3).trans (final m c)
  have e2 : Pipeline.withArrays (cfgs 0).spec c (V0 m c) (fun w => (dats m 0 c).arrAt w (cfgs 0).N)
      (Proc.devRef .tc main_arg2) = parr m c :=
    (Pipeline.withArrays_of_ne _ c (V0 m c) _ main_arg2
      (by exact (by decide : ∀ w, Pipeline.arrRef spec0 w ≠ main_arg2))).trans (V_main_arg2 m c)
  rw [e1, e2]
  funext i
  exact closing_eq (rowMins m c) (parr m c) i

/-- The run, read: the result buffer ends at the loss of the argument arrays, which end unchanged. -/
theorem run : θ_run defs (onTc (τ := τ) (main (F := Ideal))) ⟨m, fun _ => 0, ρ⟩ fun r => ∀ c : Dev nD,
      r.2.mem ((c.tc : Thread nD τ).loc main_v6) = (fun _ => loss (xarr m c) (yarr m c) (parr m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v6 (Pipeline.mem_restRefs_of main_v6 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KernelValue

end
-- ==== Proof.lean ====
/-
  The certificate: a tiled semi-dual optimal-transport loss against its plain reference.

  Both programs compute, from points x (32768 rows of 64 coordinates), points y (8192 rows) and
  potentials psi,
      loss = mean_i min_j ((|x_i|^2 + |y_j|^2) - 2 <x_i, y_j> - psi_j) + mean_j psi_j,
  with every operation in the same order and the same literals (2, +inf, 0, 32768, 8192).
  The reference forms the whole [32768, 8192] cost array and takes each row's minimum at once. The
  kernel walks a 32 x 8 grid of 1024 x 1024 tiles, keeps a running column of row minima across the
  eight tiles of a row block (reset to +inf at the first, combined by `min` with each tile's row
  minimum), and writes the column out after the last; the host then takes the two means.
  Over the extended reals the two agree with no appeal to finiteness: the squared norms and the
  inner products are the same finite sums of products (the narrowing of the matrix product's
  operands is the identity; a sum started from 0 is the sum), and a minimum over 8192 columns
  from +inf is the running minimum over eight consecutive blocks of 1024 columns from +inf,
  because `min` is idempotent, commutative and associative.
  The three frames: the two kernel programs' are the generated frames; the reference's is its run
  with the result dropped. The idealization rewrote nothing, so there is nothing to preserve.
-/
import proofs.«145586_j23965917512075_1_alg».proof.Defs
import proofs.«145586_j23965917512075_1_alg».proof.Proof.Gen.Kernel
import proofs.«145586_j23965917512075_1_alg».proof.Proof.Gen.Kernel.Skeleton
import proofs.«145586_j23965917512075_1_alg».proof.Proof.Gen.Kernel.Launch
import proofs.«145586_j23965917512075_1_alg».proof.Proof.Gen.Kernel.Points
import proofs.«145586_j23965917512075_1_alg».proof.Proof.Gen.Kernel.Frame
import proofs.«145586_j23965917512075_1_alg».proof.Proof.Gen.KernelIdeal
import proofs.«145586_j23965917512075_1_alg».proof.Proof.Gen.KernelIdeal.Skeleton
import proofs.«145586_j23965917512075_1_alg».proof.Proof.Gen.KernelIdeal.Launch
import proofs.«145586_j23965917512075_1_alg».proof.Proof.Gen.KernelIdeal.Points
import proofs.«145586_j23965917512075_1_alg».proof.Proof.Gen.KernelIdeal.Frame
import proofs.«145586_j23965917512075_1_alg».proof.Proof.Gen.ReferenceIdeal
import proofs.«145586_j23965917512075_1_alg».proof.Proof.Gen.Pre_finite_inputs
import proofs.«145586_j23965917512075_1_alg».proof.Proof.Gen.ReferenceIdeal.Run
import proofs.«145586_j23965917512075_1_alg».proof.Proof.Gen.ReferenceIdeal.Read
import proofs.«145586_j23965917512075_1_alg».proof.Proof.RefValue
import proofs.«145586_j23965917512075_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with their result at the loss of the (agreeing) argument arrays. -/
theorem algebraic : Cert.algebraic_KernelIdeal_ReferenceIdeal := by
  intro m ρ m' ρ' _ hagree
  refine ⟨fun c => fun _ => SemiDual.loss (Cert.KernelIdeal.Accum.xarr m c) (Cert.KernelIdeal.Accum.yarr m c)
    (Cert.KernelIdeal.Accum.parr m c), Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, (hagree c).1, (hagree c).2.1, (hagree c).2.2]
  funext i
  exact Cert.ReferenceIdeal.RefValue.result_eq _ _ _ i

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
